-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000 : Shape := ⟨1, ![1600000]⟩
abbrev S256x256 : Shape := ⟨2, ![256, 256]⟩
abbrev S256 : Shape := ⟨1, ![256]⟩
abbrev S1x256 : Shape := ⟨2, ![1, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_

variable [Facts]

def fn_part7 {F : FTy → Type} [FloatOps F] (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  main_v123

def fn_part6 {F : FTy → Type} [FloatOps F] (main_arg22 : FVec F S1x256 .f32) (main_arg23 : FVec F S1x256 .f32) (main_arg24 : FVec F S256x256 .f32) (main_arg25 : FVec F S256 .f32) (main_v98 : IVec S_ 1) (main_v101 : IVec S1x256 1) (main_c_39 : IVec S_ 1) : IVec S_ 1 :=
  let main_v102 : IVec S_ 1 := (fun x v => Host.reduce IntOp.andi x v reducesTo_S1x256_S_d0_1 h_S_) main_v101 main_c_39
  let main_v103 : IVec S_ 1 := andi main_v98 main_v102
  let main_v104 : FVec F S1x256 .f32 := Host.absf main_arg22
  let main_cst_40 : FVec F S_ .f32 := constant S_ .f32 0x7F800000#32
  let main_v105 : FVec F S1x256 .f32 := broadcastInDim S1x256 ![] bcast_S_S1x256 main_cst_40
  let main_v106 : IVec S1x256 1 := cmpf .olt main_v104 main_v105
  let main_c_41 : IVec S_ 1 := constantI S_ 1 1#1
  let main_v107 : IVec S_ 1 := (fun x v => Host.reduce IntOp.andi x v reducesTo_S1x256_S_d0_1 h_S_) main_v106 main_c_41
  let main_v108 : IVec S_ 1 := andi main_v103 main_v107
  let main_v109 : FVec F S1x256 .f32 := Host.absf main_arg23
  let main_cst_42 : FVec F S_ .f32 := constant S_ .f32 0x7F800000#32
  let main_v110 : FVec F S1x256 .f32 := broadcastInDim S1x256 ![] bcast_S_S1x256 main_cst_42
  let main_v111 : IVec S1x256 1 := cmpf .olt main_v109 main_v110
  let main_c_43 : IVec S_ 1 := constantI S_ 1 1#1
  let main_v112 : IVec S_ 1 := (fun x v => Host.reduce IntOp.andi x v reducesTo_S1x256_S_d0_1 h_S_) main_v111 main_c_43
  let main_v113 : IVec S_ 1 := andi main_v108 main_v112
  let main_v114 : FVec F S256x256 .f32 := Host.absf main_arg24
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg25
  fn_part7 (F := F) main_v118 main_v119

def fn_part5 {F : FTy → Type} [FloatOps F] (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S1x256 .f32 := Host.absf main_arg19
  let main_cst_34 : FVec F S_ .f32 := constant S_ .f32 0x7F800000#32
  let main_v90 : FVec F S1x256 .f32 := broadcastInDim S1x256 ![] bcast_S_S1x256 main_cst_34
  let main_v91 : IVec S1x256 1 := cmpf .olt main_v89 main_v90
  let main_c_35 : IVec S_ 1 := constantI S_ 1 1#1
  let main_v92 : IVec S_ 1 := (fun x v => Host.reduce IntOp.andi x v reducesTo_S1x256_S_d0_1 h_S_) main_v91 main_c_35
  let main_v93 : IVec S_ 1 := andi main_v88 main_v92
  let main_v94 : FVec F S1x256 .f32 := Host.absf main_arg20
  let main_cst_36 : FVec F S_ .f32 := constant S_ .f32 0x7F800000#32
  let main_v95 : FVec F S1x256 .f32 := broadcastInDim S1x256 ![] bcast_S_S1x256 main_cst_36
  let main_v96 : IVec S1x256 1 := cmpf .olt main_v94 main_v95
  let main_c_37 : IVec S_ 1 := constantI S_ 1 1#1
  let main_v97 : IVec S_ 1 := (fun x v => Host.reduce IntOp.andi x v reducesTo_S1x256_S_d0_1 h_S_) main_v96 main_c_37
  let main_v98 : IVec S_ 1 := andi main_v93 main_v97
  let main_v99 : FVec F S1x256 .f32 := Host.absf main_arg21
  let main_cst_38 : FVec F S_ .f32 := constant S_ .f32 0x7F800000#32
  let main_v100 : FVec F S1x256 .f32 := broadcastInDim S1x256 ![] bcast_S_S1x256 main_cst_38
  let main_v101 : IVec S1x256 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S1x256 .f32 := Host.absf main_arg17
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1x256 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S256x256 .f32) (main_arg13 : FVec F S256 .f32) (main_arg14 : FVec F S256 .f32) (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S256x256 .f32) (main_arg9 : FVec F S256x256 .f32) (main_arg10 : FVec F S256x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S256x256 .f32) (main_arg6 : FVec F S256x256 .f32) (main_arg7 : FVec F S256x256 .f32) (main_arg8 : FVec F S256x256 .f32) (main_arg9 : FVec F S256x256 .f32) (main_arg10 : FVec F S256x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x256 .f32) (main_arg1 : IVec S2x1600000 32) (main_arg2 : FVec F S1600000 .f32) (main_arg3 : FVec F S50000x256 .f32) (main_arg4 : FVec F S50000x256 .f32) (main_arg5 : FVec F S256x256 .f32) (main_arg6 : FVec F S256x256 .f32) (main_arg7 : FVec F S256x256 .f32) (main_arg8 : FVec F S256x256 .f32) (main_arg9 : FVec F S256x256 .f32) (main_arg10 : FVec F S256x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x256 .f32 := Host.absf main_arg4
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x256 : Shape := ⟨2, ![50000, 256]⟩
abbrev S2x1600000 : Shape := ⟨2, ![2, 1600000]⟩
abbrev S1600000 : Shape := ⟨1, ![1600000]⟩
abbrev S256x256 : Shape := ⟨2, ![256, 256]⟩
abbrev S256 : Shape := ⟨1, ![256]⟩
abbrev S1x256 : Shape := ⟨2, ![1, 256]⟩
abbrev S1000x256 : Shape := ⟨2, ![1000, 256]⟩

abbrev nBuf : Space → Nat
  | .hbm => 34
  | .vmem => 33
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S50000x256, .f32⟩
  | .hbm, ⟨4, _⟩ => ⟨S50000x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S256x256, .f32⟩
  | .local _ .vmem, ⟨26, _⟩ => ⟨S1x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5_0 : Ref sig .tc := ⟨.hbm, 31, rfl⟩
abbrev main_v5_1 : Ref sig .tc := ⟨.hbm, 32, rfl⟩
abbrev main_v5_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg24_1 : Ref sig .tc := ⟨.vmem, 28, rfl⟩
abbrev cc0_stg25_0 : Ref sig .tc := ⟨.vmem, 29, rfl⟩
abbrev cc0_stg25_1 : Ref sig .tc := ⟨.vmem, 30, rfl⟩
abbrev cc0_stg26_0 : Ref sig .tc := ⟨.vmem, 31, rfl⟩
abbrev cc0_stg26_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem24_1 : DmaSem sig := 28
abbrev cc0_sem25_0 : DmaSem sig := 29
abbrev cc0_sem25_1 : DmaSem sig := 30
abbrev cc0_sem26_0 : DmaSem sig := 31
abbrev cc0_sem26_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1000x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1000x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1000x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S50000x256.size a
  hwx0_1 : ∀ i : grid0.Coords, EltTy.bits .f32 = 32 ∨ (Rect.block (s := S50000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x256.size a ≤ S1x256.size a
  hwx0_20 : ∀ i : grid0.Coords, EltTy.bits .f32 = 32 ∨ (Rect.block (s := S1x256) S1x256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x256.size a ≤ S256x256.size a
  hwx0_22 : ∀ i : grid0.Coords, EltTy.bits .f32 = 32 ∨ (Rect.block (s := S256x256) S256x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1000x256.size a ≤ S50000x256.size a
  hwx0_24 : ∀ i : grid0.Coords, EltTy.bits .f32 = 32 ∨ (Rect.block (s := S50000x256) S1000x256.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1000x256.size a ≤ S50000x256.size a
  hwx0_25 : ∀ i : grid0.Coords, EltTy.bits .f32 = 32 ∨ (Rect.block (s := S50000x256) S1000x256.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1000x256.size a ≤ S50000x256.size a
  hwx0_26 : ∀ i : grid0.Coords, EltTy.bits .f32 = 32 ∨ (Rect.block (s := S50000x256) S1000x256.size (cc0_transform_26 i) (hinb0_26 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v3) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg19) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg21) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg22) S1x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg23) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg24) S256x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v4) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v5_0) S1000x256.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v5_1) S1000x256.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v5_2) S1000x256.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000 : Shape := ⟨1, ![1600000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 104
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S50000x256, .f32⟩
  | .hbm, ⟨4, _⟩ => ⟨S50000x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S256, .f32⟩
  | .hbm, ⟨26, _⟩ => ⟨S50000x256, .f32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S_, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S_, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S50000x256, .f32⟩
  | .hbm, ⟨97, _⟩ => ⟨S_, .f32⟩
  | .hbm, ⟨98, _⟩ => ⟨S50000x256, .f32⟩
  | .hbm, ⟨99, _⟩ => ⟨S50000x256, .f32⟩
  | .hbm, ⟨100, _⟩ => ⟨S50000x256, .f32⟩
  | .hbm, ⟨101, _⟩ => ⟨S1x256, .f32⟩
  | .hbm, ⟨102, _⟩ => ⟨S50000x256, .f32⟩
  | .hbm, ⟨103, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_1 : Ref sig .tc := ⟨.hbm, 58, rfl⟩
abbrev main_v30 : Ref sig .tc := ⟨.hbm, 59, rfl⟩
abbrev main_v31 : Ref sig .tc := ⟨.hbm, 60, rfl⟩
abbrev main_cst_2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_3 : Ref sig .tc := ⟨.hbm, 89, rfl⟩
abbrev main_v59 : Ref sig .tc := ⟨.hbm, 90, rfl⟩
abbrev main_v60 : Ref sig .tc := ⟨.hbm, 91, rfl⟩
abbrev main_cst_4 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call0_cst : Ref sig .tc := ⟨.hbm, 97, rfl⟩
abbrev main_call0_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.CellSpec.lean ====
/-
  One step of a gated recurrent cell followed by a linear layer, read one row at a time over the
  extended reals.

  For a row `r` of the inputs, with `xr`, `hr`, `cr` the row's entries of the features, the hidden
  state and the cell state, each gate at column `j` is

    σ( xr·W[:, j] + hr·U[:, j] + a j + p j · (cell value at j) + b j ),

  where `σ z = 1 / (1 + e^(-z))`. The new cell state is `C = f · c + i · tanh(candidate)`, the new
  hidden state is `H = o · tanh C` (the output gate peeks at the NEW cell state), and the result of the
  linear layer is `max(H, 0)·L[:, j] + l j`. Every entry of row `r` of the three results depends on
  row `r` of the inputs only: that is what lets a computation by blocks of rows and a computation on the
  whole arrays meet, row by row.

  The sums are grouped as `((x-part + h-part) + a) + p·c) + b`; another grouping of the first three
  terms is the same extended real, since addition there is associative.
-/
import Idealize.ShloMosaic.PureOps.Ideal.Laws
import Idealize.ShloMosaic.Lib.ValueIdx
import Idealize.ShloMosaic.Lib.IdealHost

noncomputable section

open scoped BigOperators

namespace Cert.CellSpec

open Idealize.ShloMosaic Idealize.ShloMosaic.ValueIdx

/-- A row of 256 extended reals. -/
abbrev Row := Fin 256 → EReal

/-- A 256 × 256 matrix of extended reals, row index first. -/
abbrev Sq := Fin 256 → Fin 256 → EReal

/-- Entry `j` of the row vector `u` times the matrix `W`. -/
def dot (u : Row) (W : Sq) (j : Fin 256) : EReal := ∑ k : Fin 256, u k * W k j

/-- The weights of the cell and of the linear layer: for each of the four gates (input, forget,
    candidate, output) a matrix on the features and one on the hidden state and two bias rows; for the
    three sigmoid gates a peephole row on the cell state; the linear layer's matrix and bias row. -/
structure Params where
  Wi : Sq
  Wf : Sq
  Wc : Sq
  Wo : Sq
  Ui : Sq
  Uf : Sq
  Uc : Sq
  Uo : Sq
  L : Sq
  ai : Row
  af : Row
  ac : Row
  ao : Row
  pi : Row
  pf : Row
  po : Row
  bi : Row
  bf : Row
  bc : Row
  bo : Row
  l : Row

/-- What goes into a sigmoid gate at column `j`: the two matrix products, the two biases and the
    peephole term on the cell value `cv`. -/
def preGate (xr hr : Row) (W U : Sq) (a p b : Row) (cv : EReal) (j : Fin 256) : EReal :=
  (((dot xr W j + dot hr U j) + a j) + p j * cv) + b j

/-- What goes into the candidate's tanh at column `j` (no peephole). -/
def preCand (xr hr : Row) (W U : Sq) (a b : Row) (j : Fin 256) : EReal :=
  ((dot xr W j + dot hr U j) + a j) + b j

variable (P : Params)

/-- The new cell state of a row, at column `j`. -/
def cellC (xr hr cr : Row) (j : Fin 256) : EReal :=
  Ideal.logistic (preGate xr hr P.Wf P.Uf P.af P.pf P.bf (cr j) j) * cr j
    + Ideal.logistic (preGate xr hr P.Wi P.Ui P.ai P.pi P.bi (cr j) j) * Ideal.tanh (preCand xr hr P.Wc P.Uc P.ac P.bc j)

/-- The new hidden state of a row, at column `j`. -/
def cellH (xr hr cr : Row) (j : Fin 256) : EReal :=
  Ideal.logistic (preGate xr hr P.Wo P.Uo P.ao P.po P.bo (cellC P xr hr cr j) j) * Ideal.tanh (cellC P xr hr cr j)

/-- The linear layer on the rectified new hidden state of a row, at column `j`. The zero it
    rectifies against is kept as the float word both programs print. -/
def lin (xr hr cr : Row) (j : Fin 256) : EReal :=
  dot (fun k => max (cellH P xr hr cr k) (Ideal.ofBits .f32 0x00000000#32)) P.L j + P.l j

/-- The sigmoid spelt out with the float word of one is the sigmoid. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

/-- Row `r` of a matrix of `n` rows. -/
abbrev rowOf {n : ℕ} (A : (⟨2, ![n, 256]⟩ : Shape).Idx → EReal) (r : Fin n) : Row := fun k => A (ix2 r k)

/-- A 256 × 256 array as a matrix. -/
abbrev sqOf (A : (⟨2, ![256, 256]⟩ : Shape).Idx → EReal) : Sq := fun k j => A (ix2 k j)

/-- A `[1, 256]` array as a row. -/
abbrev rowOf1 (A : (⟨2, ![1, 256]⟩ : Shape).Idx → EReal) : Row := fun j => A (ix2 0 j)

/-- A `[256]` array as a row. -/
abbrev rowOfV (A : (⟨1, ![256]⟩ : Shape).Idx → EReal) : Row := fun j => A (ix1 j)

/-! ## The whole arrays -/

/-- The weights read off the argument arrays as they are given: nine `[256, 256]` matrices, the four
    hidden-side bias vectors and the linear layer's bias as `[256]` arrays, the three peephole rows and
    the four gate bias rows as `[1, 256]` arrays. -/
def paramsOf (Wi Wf Wc Wo Ui Uf Uc Uo L : (⟨2, ![256, 256]⟩ : Shape).Idx → EReal)
    (ai af ac ao : (⟨1, ![256]⟩ : Shape).Idx → EReal)
    (pi pf po bi bf bc bo : (⟨2, ![1, 256]⟩ : Shape).Idx → EReal)
    (l : (⟨1, ![256]⟩ : Shape).Idx → EReal) : Params where
  Wi := sqOf Wi
  Wf := sqOf Wf
  Wc := sqOf Wc
  Wo := sqOf Wo
  Ui := sqOf Ui
  Uf := sqOf Uf
  Uc := sqOf Uc
  Uo := sqOf Uo
  L := sqOf L
  ai := rowOfV ai
  af := rowOfV af
  ac := rowOfV ac
  ao := rowOfV ao
  pi := rowOf1 pi
  pf := rowOf1 pf
  po := rowOf1 po
  bi := rowOf1 bi
  bf := rowOf1 bf
  bc := rowOf1 bc
  bo := rowOf1 bo
  l := rowOfV l

variable {n : ℕ}

/-- The new cell state of every row. -/
def arrC (x h c : (⟨2, ![n, 256]⟩ : Shape).Idx → EReal) : (⟨2, ![n, 256]⟩ : Shape).Idx → EReal :=
  fun i => cellC P (rowOf x (i 0)) (rowOf h (i 0)) (rowOf c (i 0)) (i 1)

/-- The new hidden state of every row. -/
def arrH (x h c : (⟨2, ![n, 256]⟩ : Shape).Idx → EReal) : (⟨2, ![n, 256]⟩ : Shape).Idx → EReal :=
  fun i => cellH P (rowOf x (i 0)) (rowOf h (i 0)) (rowOf c (i 0)) (i 1)

/-- The linear layer's result for every row. -/
def arrOut (x h c : (⟨2, ![n, 256]⟩ : Shape).Idx → EReal) : (⟨2, ![n, 256]⟩ : Shape).Idx → EReal :=
  fun i => lin P (rowOf x (i 0)) (rowOf h (i 0)) (rowOf c (i 0)) (i 1)

end Cert.CellSpec

end
-- ==== Proof.KernelBlock.lean ====
/-
  What the kernel's body leaves in one block of rows, read at an entry.

  The body works on a block of 1000 rows of the features `x`, the hidden state `h` and the cell state `c`,
  with every weight matrix and bias row whole. Changes of float format are the identity on the extended
  reals, a matrix product into a zero accumulator is the plain sum over the contracted axis, a bias row
  broadcast over the block's rows reads its one row, and every other operation acts entry by entry. So
  at row `p` and column `q` of the block the three stored values are the cell specification's `cellC`,
  `cellH` and `lin` of row `p` of the block.
-/
import proofs.«137124_j14474039788131_1_alg».proof.Proof.Gen.KernelIdeal.Skeleton
import proofs.«137124_j14474039788131_1_alg».proof.Proof.LibMatmulAt
import proofs.«137124_j14474039788131_1_alg».proof.Proof.CellSpec
import Idealize.ShloMosaic.Lib.Pipeline.Value
import Idealize.ShloMosaic.Lib.ValueLayout

noncomputable section

open scoped BigOperators

namespace Cert.KernelBlock

open Idealize.ShloMosaic Idealize.ShloMosaic.ValueIdx Cert.KernelIdeal Cert.KernelIdeal.Gen Cert.CellSpec

/-- The weights as the body holds them: nine whole matrices and twelve one-row arrays. -/
def params (Wi Wf Wc Wo Ui Uf Uc Uo L : Vec Ideal S256x256 .f32)
    (ai af ac ao pi pf po bi bf bc bo l : Vec Ideal S1x256 .f32) : Params where
  Wi := sqOf Wi
  Wf := sqOf Wf
  Wc := sqOf Wc
  Wo := sqOf Wo
  Ui := sqOf Ui
  Uf := sqOf Uf
  Uc := sqOf Uc
  Uo := sqOf Uo
  L := sqOf L
  ai := rowOf1 ai
  af := rowOf1 af
  ac := rowOf1 ac
  ao := rowOf1 ao
  pi := rowOf1 pi
  pf := rowOf1 pf
  po := rowOf1 po
  bi := rowOf1 bi
  bf := rowOf1 bf
  bc := rowOf1 bc
  bo := rowOf1 bo
  l := rowOf1 l

/-! ## The matrix products -/

/-- A block of rows times a weight matrix, at an entry: the row's product with the matrix's column. -/
theorem prod_at (a : Vec Ideal S1000x256 .f32) (w : Vec Ideal S256x256 .f32) (p : Fin 1000) (q : Fin 256) :
    FloatOps.matmul dot_S1000x256_S256x256_S1000x256_1_0_0_1_n_n none
        (truncf .bf16 a bitsLt_bf16_f32 : FVec Ideal S1000x256 .bf16) (truncf .bf16 w bitsLt_bf16_f32 : FVec Ideal S256x256 .bf16)
        (constant S1000x256 .f32 0x00000000#32) (ix2 p q)
      = dot (rowOf a p) (sqOf w) q :=
  LibMatmulAt.matmul_zero_at dot_S1000x256_S256x256_S1000x256_1_0_0_1_n_n rfl rfl rfl rfl rfl rfl none _ _ p q

theorem pay5_at (x : Vec Ideal S1000x256 .f32) (w : Vec Ideal S256x256 .f32) (p : Fin 1000) (q : Fin 256) :
    k0_pay5 x w (ix2 p q) = dot (rowOf x p) (sqOf w) q := prod_at x w p q

theorem pay6_at (x : Vec Ideal S1000x256 .f32) (w : Vec Ideal S256x256 .f32) (p : Fin 1000) (q : Fin 256) :
    k0_pay6 x w (ix2 p q) = dot (rowOf x p) (sqOf w) q := prod_at x w p q

theorem pay7_at (x : Vec Ideal S1000x256 .f32) (w : Vec Ideal S256x256 .f32) (p : Fin 1000) (q : Fin 256) :
    k0_pay7 x w (ix2 p q) = dot (rowOf x p) (sqOf w) q := prod_at x w p q

theorem pay8_at (x : Vec Ideal S1000x256 .f32) (w : Vec Ideal S256x256 .f32) (p : Fin 1000) (q : Fin 256) :
    k0_pay8 x w (ix2 p q) = dot (rowOf x p) (sqOf w) q := prod_at x w p q

theorem pay9_at (h : Vec Ideal S1000x256 .f32) (w : Vec Ideal S256x256 .f32) (p : Fin 1000) (q : Fin 256) :
    k0_pay9 h w (ix2 p q) = dot (rowOf h p) (sqOf w) q := prod_at h w p q

theorem pay10_at (h : Vec Ideal S1000x256 .f32) (w : Vec Ideal S256x256 .f32) (p : Fin 1000) (q : Fin 256) :
    k0_pay10 h w (ix2 p q) = dot (rowOf h p) (sqOf w) q := prod_at h w p q

theorem pay11_at (h : Vec Ideal S1000x256 .f32) (w : Vec Ideal S256x256 .f32) (p : Fin 1000) (q : Fin 256) :
    k0_pay11 h w (ix2 p q) = dot (rowOf h p) (sqOf w) q := prod_at h w p q

theorem pay12_at (h : Vec Ideal S1000x256 .f32) (w : Vec Ideal S256x256 .f32) (p : Fin 1000) (q : Fin 256) :
    k0_pay12 h w (ix2 p q) = dot (rowOf h p) (sqOf w) q := prod_at h w p q

/-! ## A bias row over the block -/

/-- A one-row array broadcast over the block's rows reads its one row. -/
theorem bias_at (b : Vec Ideal S1x256 .f32) (p : Fin 1000) (q : Fin 256) :
    (broadcastTo S1000x256 b broadcasts_S1x256_S1000x256 : FVec Ideal S1000x256 .f32) (ix2 p q) = b (ix2 0 q) :=
  broadcastTo_1b_ab_apply b broadcasts_S1x256_S1000x256 p q

/-- The same after a shape cast that changes nothing. -/
theorem bias_cast_at (b : Vec Ideal S1x256 .f32) (p : Fin 1000) (q : Fin 256) :
    (broadcastTo S1000x256 (shapeCast S1x256 b shapeCasts_S1x256_S1x256) broadcasts_S1x256_S1000x256 : FVec Ideal S1000x256 .f32) (ix2 p q)
      = b (ix2 0 q) := by
  rw [shapeCast_self]; exact bias_at b p q

/-! ## The three stored values over abstract products -/

/-- The new cell state at an entry, the six matrix products it uses given as blocks. -/
theorem pay13_at (c xi xf xc hi hf hc : FVec Ideal S1000x256 .f32) (ai pi bi af pf bf ac bc : Vec Ideal S1x256 .f32)
    (p : Fin 1000) (q : Fin 256) :
    k0_pay13 c xi xf xc hi hf hc ai pi bi af pf bf ac bc (ix2 p q)
      = Ideal.logistic ((((xf (ix2 p q) + hf (ix2 p q)) + af (ix2 0 q)) + pf (ix2 0 q) * c (ix2 p q)) + bf (ix2 0 q)) * c (ix2 p q)
        + Ideal.logistic ((((xi (ix2 p q) + hi (ix2 p q)) + ai (ix2 0 q)) + pi (ix2 0 q) * c (ix2 p q)) + bi (ix2 0 q))
          * Ideal.tanh (((xc (ix2 p q) + hc (ix2 p q)) + ac (ix2 0 q)) + bc (ix2 0 q)) := by
  show Ideal.logistic ((((xf (ix2 p q) + hf (ix2 p q))
          + (broadcastTo S1000x256 (shapeCast S1x256 af shapeCasts_S1x256_S1x256) broadcasts_S1x256_S1000x256 : FVec Ideal S1000x256 .f32) (ix2 p q))
          + (broadcastTo S1000x256 pf broadcasts_S1x256_S1000x256 : FVec Ideal S1000x256 .f32) (ix2 p q) * c (ix2 p q))
          + (broadcastTo S1000x256 bf broadcasts_S1x256_S1000x256 : FVec Ideal S1000x256 .f32) (ix2 p q)) * c (ix2 p q)
        + Ideal.logistic ((((xi (ix2 p q) + hi (ix2 p q))
          + (broadcastTo S1000x256 (shapeCast S1x256 ai shapeCasts_S1x256_S1x256) broadcasts_S1x256_S1000x256 : FVec Ideal S1000x256 .f32) (ix2 p q))
          + (broadcastTo S1000x256 pi broadcasts_S1x256_S1000x256 : FVec Ideal S1000x256 .f32) (ix2 p q) * c (ix2 p q))
          + (broadcastTo S1000x256 bi broadcasts_S1x256_S1000x256 : FVec Ideal S1000x256 .f32) (ix2 p q))
          * Ideal.tanh (((xc (ix2 p q) + hc (ix2 p q))
          + (broadcastTo S1000x256 (shapeCast S1x256 ac shapeCasts_S1x256_S1x256) broadcasts_S1x256_S1000x256 : FVec Ideal S1000x256 .f32) (ix2 p q))
          + (broadcastTo S1000x256 bc broadcasts_S1x256_S1000x256 : FVec Ideal S1000x256 .f32) (ix2 p q)) = _
  rw [bias_cast_at af, bias_cast_at ai, bias_cast_at ac, bias_at pf, bias_at bf, bias_at pi, bias_at bi, bias_at bc]

/-- The new hidden state at an entry, over the new cell state and the output gate's two products. -/
theorem pay1_at (C xo ho : FVec Ideal S1000x256 .f32) (ao po bo : Vec Ideal S1x256 .f32) (p : Fin 1000) (q : Fin 256) :
    k0_pay1 C (k0_pay14 xo ho) (k0_pay15 ao) po bo (ix2 p q)
      = Ideal.logistic ((((xo (ix2 p q) + ho (ix2 p q)) + ao (ix2 0 q)) + po (ix2 0 q) * C (ix2 p q)) + bo (ix2 0 q))
        * Ideal.tanh (C (ix2 p q)) := by
  show Ideal.logistic ((((xo (ix2 p q) + ho (ix2 p q))
          + (broadcastTo S1000x256 (shapeCast S1x256 ao shapeCasts_S1x256_S1x256) broadcasts_S1x256_S1000x256 : FVec Ideal S1000x256 .f32) (ix2 p q))
          + (broadcastTo S1000x256 po broadcasts_S1x256_S1000x256 : FVec Ideal S1000x256 .f32) (ix2 p q) * C (ix2 p q))
          + (broadcastTo S1000x256 bo broadcasts_S1x256_S1000x256 : FVec Ideal S1000x256 .f32) (ix2 p q))
        * Ideal.tanh (C (ix2 p q)) = _
  rw [bias_cast_at ao, bias_at po, bias_at bo]

/-- The linear layer's result at an entry, over the new hidden state. -/
theorem pay2_at (C v67 v70 : FVec Ideal S1000x256 .f32) (po bo : Vec Ideal S1x256 .f32) (L : Vec Ideal S256x256 .f32)
    (l : Vec Ideal S1x256 .f32) (p : Fin 1000) (q : Fin 256) :
    k0_pay2 C v67 v70 po bo L l (ix2 p q)
      = dot (fun k => max (k0_pay1 C v67 v70 po bo (ix2 p k)) (Ideal.ofBits .f32 0x00000000#32)) (sqOf L) q + l (ix2 0 q) := by
  show FloatOps.matmul dot_S1000x256_S256x256_S1000x256_1_0_0_1_n_n none
        (truncf .bf16 (maximumf (k0_pay1 C v67 v70 po bo) (broadcast S1000x256 (Scalar.ofBits .f32 0x00000000#32))) bitsLt_bf16_f32 : FVec Ideal S1000x256 .bf16)
        (truncf .bf16 L bitsLt_bf16_f32 : FVec Ideal S256x256 .bf16) (constant S1000x256 .f32 0x00000000#32) (ix2 p q)
      + (broadcastTo S1000x256 (shapeCast S1x256 l shapeCasts_S1x256_S1x256) broadcasts_S1x256_S1000x256 : FVec Ideal S1000x256 .f32) (ix2 p q) = _
  rw [bias_cast_at l, prod_at]
  rfl

/-! ## The three stored values of the block's rows -/

variable (x h c : Vec Ideal S1000x256 .f32) (Wi Wf Wc Wo Ui Uf Uc Uo L : Vec Ideal S256x256 .f32)
  (ai af ac ao pi pf po bi bf bc bo l : Vec Ideal S1x256 .f32)

/-- The new cell state the body stores, at row `p` and column `q` of the block. -/
theorem blockC (p : Fin 1000) (q : Fin 256) :
    k0_pay13 c (k0_pay5 x Wi) (k0_pay6 x Wf) (k0_pay7 x Wc) (k0_pay9 h Ui) (k0_pay10 h Uf) (k0_pay11 h Uc) ai pi bi af pf bf ac bc (ix2 p q)
      = cellC (params Wi Wf Wc Wo Ui Uf Uc Uo L ai af ac ao pi pf po bi bf bc bo l) (rowOf x p) (rowOf h p) (rowOf c p) q := by
  rw [pay13_at, pay5_at, pay6_at, pay7_at, pay9_at, pay10_at, pay11_at]
  rfl

/-- The new hidden state the body stores, at row `p` and column `q` of the block. -/
theorem blockH (p : Fin 1000) (q : Fin 256) :
    k0_pay1 (k0_pay13 c (k0_pay5 x Wi) (k0_pay6 x Wf) (k0_pay7 x Wc) (k0_pay9 h Ui) (k0_pay10 h Uf) (k0_pay11 h Uc) ai pi bi af pf bf ac bc)
        (k0_pay14 (k0_pay8 x Wo) (k0_pay12 h Uo)) (k0_pay15 ao) po bo (ix2 p q)
      = cellH (params Wi Wf Wc Wo Ui Uf Uc Uo L ai af ac ao pi pf po bi bf bc bo l) (rowOf x p) (rowOf h p) (rowOf c p) q := by
  rw [pay1_at, pay8_at, pay12_at, blockC x h c Wi Wf Wc Wo Ui Uf Uc Uo L ai af ac ao pi pf po bi bf bc bo l]
  rfl

/-- The linear layer's result the body stores, at row `p` and column `q` of the block. -/
theorem blockOut (p : Fin 1000) (q : Fin 256) :
    k0_pay2 (k0_pay13 c (k0_pay5 x Wi) (k0_pay6 x Wf) (k0_pay7 x Wc) (k0_pay9 h Ui) (k0_pay10 h Uf) (k0_pay11 h Uc) ai pi bi af pf bf ac bc)
        (k0_pay14 (k0_pay8 x Wo) (k0_pay12 h Uo)) (k0_pay15 ao) po bo L l (ix2 p q)
      = lin (params Wi Wf Wc Wo Ui Uf Uc Uo L ai af ac ao pi pf po bi bf bc bo l) (rowOf x p) (rowOf h p) (rowOf c p) q := by
  rw [pay2_at]
  simp only [blockH x h c Wi Wf Wc Wo Ui Uf Uc Uo L ai af ac ao pi pf po bi bf bc bo l]
  rfl

end Cert.KernelBlock

end
-- ==== Proof.KernelArrays.lean ====
/-
  From the kernel's blocks to its three result arrays.

  The grid has 50 points; point `t` stages rows `1000 t … 1000 t + 999` of the features, the hidden
  state and the cell state, every weight array whole, and writes back rows `1000 t … 1000 t + 999` of
  each result. Row `p` of the block at point `t` is row `1000 t + p` of the array, and what the body
  stores at that row depends on that row only, so point `t` writes back block `t` of the whole-array
  functions `arrC`, `arrH`, `arrOut`. The 50 blocks cover every row (row `r` lies in block `r / 1000`),
  so after the run each result array is that function of the arrays the region found.
-/
import proofs.«137124_j14474039788131_1_alg».proof.Proof.Gen.KernelIdeal.Value
import proofs.«137124_j14474039788131_1_alg».proof.Proof.KernelBlock
import proofs.«137124_j14474039788131_1_alg».proof.Proof.CellSpec
import Idealize.ShloMosaic.Lib.Pipeline.Value
import Idealize.ShloMosaic.Lib.ValueLayout

noncomputable section

namespace Cert.KernelArrays

open Cert.KernelIdeal Cert.KernelIdeal.Gen Cert.KernelIdeal.Value Idealize.ShloMosaic Idealize.ShloMosaic.TcCoe Idealize.SL.Sem
open Idealize.ShloMosaic.ValueIdx Cert.CellSpec Cert.KernelBlock
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 50 points -/

/-- The three row inputs and the three results move together: point `t` is at block `(t, 0)`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_24.index t (0 : Fin 2) = t.val ∧ win0_24.index t (1 : Fin 2) = 0
    ∧ win0_25.index t (0 : Fin 2) = t.val ∧ win0_25.index t (1 : Fin 2) = 0
    ∧ win0_26.index t (0 : Fin 2) = t.val ∧ win0_26.index t (1 : Fin 2) = 0 :=
  (by decide +kernel : ∀ t : Fin grid0.N, _)

/-- Every weight array is staged whole at every point: block `(0, 0)`. -/
theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0
    ∧ win0_19.index t (0 : Fin 2) = 0 ∧ win0_19.index t (1 : Fin 2) = 0
    ∧ win0_20.index t (0 : Fin 2) = 0 ∧ win0_20.index t (1 : Fin 2) = 0
    ∧ win0_21.index t (0 : Fin 2) = 0 ∧ win0_21.index t (1 : Fin 2) = 0
    ∧ win0_22.index t (0 : Fin 2) = 0 ∧ win0_22.index t (1 : Fin 2) = 0
    ∧ win0_23.index t (0 : Fin 2) = 0 ∧ win0_23.index t (1 : Fin 2) = 0 :=
  (by decide +kernel : ∀ t : Fin grid0.N, _)

/-! ## The blocks the body reads -/

theorem whole3 (c : Dev nD) (t : Fin cfg0.N) : (iblk m c 3 t : Vec Ideal S256x256 .f32) = V m c main_arg5 := by
  funext y
  show V m c main_arg5 (((cfg0.win 3).blk t).view.emb y) = V m c main_arg5 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem whole4 (c : Dev nD) (t : Fin cfg0.N) : (iblk m c 4 t : Vec Ideal S256x256 .f32) = V m c main_arg6 := by
  funext y
  show V m c main_arg6 (((cfg0.win 4).blk t).view.emb y) = V m c main_arg6 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem whole5 (c : Dev nD) (t : Fin cfg0.N) : (iblk m c 5 t : Vec Ideal S256x256 .f32) = V m c main_arg7 := by
  funext y
  show V m c main_arg7 (((cfg0.win 5).blk t).view.emb y) = V m c main_arg7 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem whole6 (c : Dev nD) (t : Fin cfg0.N) : (iblk m c 6 t : Vec Ideal S256x256 .f32) = V m c main_arg8 := by
  funext y
  show V m c main_arg8 (((cfg0.win 6).blk t).view.emb y) = V m c main_arg8 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem whole7 (c : Dev nD) (t : Fin cfg0.N) : (iblk m c 7 t : Vec Ideal S256x256 .f32) = V m c main_arg9 := by
  funext y
  show V m c main_arg9 (((cfg0.win 7).blk t).view.emb y) = V m c main_arg9 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_7.index t (0 : Fin 2) * 256 + 1 * (y 0).val = (y 0).val; omega
  | ⟨1, _⟩ => show win0_7.index t (1 : Fin 2) * 256 + 1 * (y 1).val = (y 1).val; omega

theorem whole8 (c : Dev nD) (t : Fin cfg0.N) : (iblk m c 8 t : Vec Ideal S256x256 .f32) = V m c main_arg10 := by
  funext y
  show V m c main_arg10 (((cfg0.win 8).blk t).view.emb y) = V m c main_arg10 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_8.index t (0 : Fin 2) * 256 + 1 * (y 0).val = (y 0).val; omega
  | ⟨1, _⟩ => show win0_8.index t (1 : Fin 2) * 256 + 1 * (y 1).val = (y 1).val; omega

theorem whole9 (c : Dev nD) (t : Fin cfg0.N) : (iblk m c 9 t : Vec Ideal S256x256 .f32) = V m c main_arg11 := by
  funext y
  show V m c main_arg11 (((cfg0.win 9).blk t).view.emb y) = V m c main_arg11 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_9.index t (0 : Fin 2) * 256 + 1 * (y 0).val = (y 0).val; omega
  | ⟨1, _⟩ => show win0_9.index t (1 : Fin 2) * 256 + 1 * (y 1).val = (y 1).val; omega

theorem whole10 (c : Dev nD) (t : Fin cfg0.N) : (iblk m c 10 t : Vec Ideal S256x256 .f32) = V m c main_arg12 := by
  funext y
  show V m c main_arg12 (((cfg0.win 10).blk t).view.emb y) = V m c main_arg12 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_10.index t (0 : Fin 2) * 256 + 1 * (y 0).val = (y 0).val; omega
  | ⟨1, _⟩ => show win0_10.index t (1 : Fin 2) * 256 + 1 * (y 1).val = (y 1).val; omega

theorem whole11 (c : Dev nD) (t : Fin cfg0.N) : (iblk m c 11 t : Vec Ideal S1x256 .f32) = V m c main_v0 := by
  funext y
  show V m c main_v0 (((cfg0.win 11).blk t).view.emb y) = V m c main_v0 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_11.index t (0 : Fin 2) * 1 + 1 * (y 0).val = (y 0).val; omega
  | ⟨1, _⟩ => show win0_11.index t (1 : Fin 2) * 256 + 1 * (y 1).val = (y 1).val; omega

theorem whole12 (c : Dev nD) (t : Fin cfg0.N) : (iblk m c 12 t : Vec Ideal S1x256 .f32) = V m c main_v1 := by
  funext y
  show V m c main_v1 (((cfg0.win 12).blk t).view.emb y) = V m c main_v1 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_12.index t (0 : Fin 2) * 1 + 1 * (y 0).val = (y 0).val; omega
  | ⟨1, _⟩ => show win0_12.index t (1 : Fin 2) * 256 + 1 * (y 1).val = (y 1).val; omega

theorem whole13 (c : Dev nD) (t : Fin cfg0.N) : (iblk m c 13 t : Vec Ideal S1x256 .f32) = V m c main_v2 := by
  funext y
  show V m c main_v2 (((cfg0.win 13).blk t).view.emb y) = V m c main_v2 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_13.index t (0 : Fin 2) * 1 + 1 * (y 0).val = (y 0).val; omega
  | ⟨1, _⟩ => show win0_13.index t (1 : Fin 2) * 256 + 1 * (y 1).val = (y 1).val; omega

theorem whole14 (c : Dev nD) (t : Fin cfg0.N) : (iblk m c 14 t : Vec Ideal S1x256 .f32) = V m c main_v3 := by
  funext y
  show V m c main_v3 (((cfg0.win 14).blk t).view.emb y) = V m c main_v3 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_14.index t (0 : Fin 2) * 1 + 1 * (y 0).val = (y 0).val; omega
  | ⟨1, _⟩ => show win0_14.index t (1 : Fin 2) * 256 + 1 * (y 1).val = (y 1).val; omega

theorem whole15 (c : Dev nD) (t : Fin cfg0.N) : (iblk m c 15 t : Vec Ideal S1x256 .f32) = V m c main_arg17 := by
  funext y
  show V m c main_arg17 (((cfg0.win 15).blk t).view.emb y) = V m c main_arg17 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_15.index t (0 : Fin 2) * 1 + 1 * (y 0).val = (y 0).val; omega
  | ⟨1, _⟩ => show win0_15.index t (1 : Fin 2) * 256 + 1 * (y 1).val = (y 1).val; omega

theorem whole16 (c : Dev nD) (t : Fin cfg0.N) : (iblk m c 16 t : Vec Ideal S1x256 .f32) = V m c main_arg18 := by
  funext y
  show V m c main_arg18 (((cfg0.win 16).blk t).view.emb y) = V m c main_arg18 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_16.index t (0 : Fin 2) * 1 + 1 * (y 0).val = (y 0).val; omega
  | ⟨1, _⟩ => show win0_16.index t (1 : Fin 2) * 256 + 1 * (y 1).val = (y 1).val; omega

theorem whole17 (c : Dev nD) (t : Fin cfg0.N) : (iblk m c 17 t : Vec Ideal S1x256 .f32) = V m c main_arg19 := by
  funext y
  show V m c main_arg19 (((cfg0.win 17).blk t).view.emb y) = V m c main_arg19 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_17.index t (0 : Fin 2) * 1 + 1 * (y 0).val = (y 0).val; omega
  | ⟨1, _⟩ => show win0_17.index t (1 : Fin 2) * 256 + 1 * (y 1).val = (y 1).val; omega

theorem whole18 (c : Dev nD) (t : Fin cfg0.N) : (iblk m c 18 t : Vec Ideal S1x256 .f32) = V m c main_arg20 := by
  funext y
  show V m c main_arg20 (((cfg0.win 18).blk t).view.emb y) = V m c main_arg20 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_18.index t (0 : Fin 2) * 1 + 1 * (y 0).val = (y 0).val; omega
  | ⟨1, _⟩ => show win0_18.index t (1 : Fin 2) * 256 + 1 * (y 1).val = (y 1).val; omega

theorem whole19 (c : Dev nD) (t : Fin cfg0.N) : (iblk m c 19 t : Vec Ideal S1x256 .f32) = V m c main_arg21 := by
  funext y
  show V m c main_arg21 (((cfg0.win 19).blk t).view.emb y) = V m c main_arg21 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_19.index t (0 : Fin 2) * 1 + 1 * (y 0).val = (y 0).val; omega
  | ⟨1, _⟩ => show win0_19.index t (1 : Fin 2) * 256 + 1 * (y 1).val = (y 1).val; omega

theorem whole20 (c : Dev nD) (t : Fin cfg0.N) : (iblk m c 20 t : Vec Ideal S1x256 .f32) = V m c main_arg22 := by
  funext y
  show V m c main_arg22 (((cfg0.win 20).blk t).view.emb y) = V m c main_arg22 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_20.index t (0 : Fin 2) * 1 + 1 * (y 0).val = (y 0).val; omega
  | ⟨1, _⟩ => show win0_20.index t (1 : Fin 2) * 256 + 1 * (y 1).val = (y 1).val; omega

theorem whole21 (c : Dev nD) (t : Fin cfg0.N) : (iblk m c 21 t : Vec Ideal S1x256 .f32) = V m c main_arg23 := by
  funext y
  show V m c main_arg23 (((cfg0.win 21).blk t).view.emb y) = V m c main_arg23 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_21.index t (0 : Fin 2) * 1 + 1 * (y 0).val = (y 0).val; omega
  | ⟨1, _⟩ => show win0_21.index t (1 : Fin 2) * 256 + 1 * (y 1).val = (y 1).val; omega

theorem whole22 (c : Dev nD) (t : Fin cfg0.N) : (iblk m c 22 t : Vec Ideal S256x256 .f32) = V m c main_arg24 := by
  funext y
  show V m c main_arg24 (((cfg0.win 22).blk t).view.emb y) = V m c main_arg24 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_22.index t (0 : Fin 2) * 256 + 1 * (y 0).val = (y 0).val; omega
  | ⟨1, _⟩ => show win0_22.index t (1 : Fin 2) * 256 + 1 * (y 1).val = (y 1).val; omega

theorem whole23 (c : Dev nD) (t : Fin cfg0.N) : (iblk m c 23 t : Vec Ideal S1x256 .f32) = V m c main_v4 := by
  funext y
  show V m c main_v4 (((cfg0.win 23).blk t).view.emb y) = V m c main_v4 y
  refine congrArg _ (funext fun a => Fin.ext ?_)
  obtain ⟨w3a, w3b, w4a, w4b, w5a, w5b, w6a, w6b, w7a, w7b, w8a, w8b, w9a, w9b, w10a, w10b, w11a, w11b, w12a, w12b, w13a, w13b, w14a, w14b, w15a, w15b, w16a, w16b, w17a, w17b, w18a, w18b, w19a, w19b, w20a, w20b, w21a, w21b, w22a, w22b, w23a, w23b⟩ := idx_whole t
  match a with
  | ⟨0, _⟩ => show win0_23.index t (0 : Fin 2) * 1 + 1 * (y 0).val = (y 0).val; omega
  | ⟨1, _⟩ => show win0_23.index t (1 : Fin 2) * 256 + 1 * (y 1).val = (y 1).val; omega

theorem rowBlk0 (c : Dev nD) (t : Fin cfg0.N) (p : Fin 1000) (r : Fin 50000) (hr : r.val = t.val * 1000 + p.val) :
    rowOf (iblk m c 0 t : Vec Ideal S1000x256 .f32) p = rowOf (V m c main_arg0 : Vec Ideal S50000x256 .f32) r := by
  funext k
  show V m c main_arg0 (((cfg0.win 0).blk t).view.emb (ix2 p k)) = V m c main_arg0 (ix2 r k)
  refine congrArg _ (funext fun a => Fin.ext ?_)
  obtain ⟨r0a, r0b, r1a, r1b, r2a, r2b, r24a, r24b, r25a, r25b, r26a, r26b⟩ := idx_rows t
  match a with
  | ⟨0, _⟩ => show win0_0.index t (0 : Fin 2) * 1000 + 1 * p.val = r.val; omega
  | ⟨1, _⟩ => show win0_0.index t (1 : Fin 2) * 256 + 1 * k.val = k.val; omega

theorem rowBlk1 (c : Dev nD) (t : Fin cfg0.N) (p : Fin 1000) (r : Fin 50000) (hr : r.val = t.val * 1000 + p.val) :
    rowOf (iblk m c 1 t : Vec Ideal S1000x256 .f32) p = rowOf (V m c main_arg3 : Vec Ideal S50000x256 .f32) r := by
  funext k
  show V m c main_arg3 (((cfg0.win 1).blk t).view.emb (ix2 p k)) = V m c main_arg3 (ix2 r k)
  refine congrArg _ (funext fun a => Fin.ext ?_)
  obtain ⟨r0a, r0b, r1a, r1b, r2a, r2b, r24a, r24b, r25a, r25b, r26a, r26b⟩ := idx_rows t
  match a with
  | ⟨0, _⟩ => show win0_1.index t (0 : Fin 2) * 1000 + 1 * p.val = r.val; omega
  | ⟨1, _⟩ => show win0_1.index t (1 : Fin 2) * 256 + 1 * k.val = k.val; omega

theorem rowBlk2 (c : Dev nD) (t : Fin cfg0.N) (p : Fin 1000) (r : Fin 50000) (hr : r.val = t.val * 1000 + p.val) :
    rowOf (iblk m c 2 t : Vec Ideal S1000x256 .f32) p = rowOf (V m c main_arg4 : Vec Ideal S50000x256 .f32) r := by
  funext k
  show V m c main_arg4 (((cfg0.win 2).blk t).view.emb (ix2 p k)) = V m c main_arg4 (ix2 r k)
  refine congrArg _ (funext fun a => Fin.ext ?_)
  obtain ⟨r0a, r0b, r1a, r1b, r2a, r2b, r24a, r24b, r25a, r25b, r26a, r26b⟩ := idx_rows t
  match a with
  | ⟨0, _⟩ => show win0_2.index t (0 : Fin 2) * 1000 + 1 * p.val = r.val; omega
  | ⟨1, _⟩ => show win0_2.index t (1 : Fin 2) * 256 + 1 * k.val = k.val; omega

/-- The weights as the region finds them. -/
def PV (c : Dev nD) : Params := params (V m c main_arg5) (V m c main_arg6) (V m c main_arg7) (V m c main_arg8) (V m c main_arg9) (V m c main_arg10) (V m c main_arg11) (V m c main_arg12) (V m c main_arg24) (V m c main_v0) (V m c main_v1) (V m c main_v2) (V m c main_v3) (V m c main_arg17) (V m c main_arg18) (V m c main_arg19) (V m c main_arg20) (V m c main_arg21) (V m c main_arg22) (V m c main_arg23) (V m c main_v4)

/-- At every point the body's weights are the whole arrays. -/
theorem params_blk (c : Dev nD) (t : Fin cfg0.N) : params (iblk m c 3 t) (iblk m c 4 t) (iblk m c 5 t) (iblk m c 6 t) (iblk m c 7 t) (iblk m c 8 t) (iblk m c 9 t) (iblk m c 10 t) (iblk m c 22 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 23 t) = PV m c := by
  unfold PV
  rw [whole3 m c t, whole4 m c t, whole5 m c t, whole6 m c t, whole7 m c t, whole8 m c t, whole9 m c t, whole10 m c t, whole22 m c t, whole11 m c t, whole12 m c t, whole13 m c t, whole14 m c t, whole15 m c t, whole16 m c t, whole17 m c t, whole18 m c t, whole19 m c t, whole20 m c t, whole21 m c t, whole23 m c t]

/-! ## What each point writes back -/

/-- Point `t` writes back block `t` of the new cell state. -/
theorem flushedC (c : Dev nD) (t : Fin cfg0.N) :
    (dats m 0 c).flushed 26 t = ((cfg0.win 26).blk t).view.read (Elt Ideal) (arrC (PV m c) (V m c main_arg0) (V m c main_arg3) (V m c main_arg4)) := by
  rw [flushed26]
  unfold out0_26
  rw [View.canon_unit_zero hz]
  simp only [View.ld_unit_zero (S := S1000x256) hz, View.ld_unit_zero (S := S256x256) hz, View.ld_unit_zero (S := S1x256) hz]
  funext y
  obtain ⟨p, q, rfl⟩ : ∃ (p : Fin 1000) (q : Fin 256), y = ix2 p q := ⟨y 0, y 1, eq_ix2 y⟩
  refine (blockC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 22 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 23 t) p q).trans ?_
  rw [params_blk m c t]
  obtain ⟨r0a, r0b, r1a, r1b, r2a, r2b, r24a, r24b, r25a, r25b, r26a, r26b⟩ := idx_rows t
  have h0 : ((((cfg0.win 26).blk t).view.emb (ix2 p q)) 0).val = t.val * 1000 + p.val := by
    show win0_26.index t (0 : Fin 2) * 1000 + 1 * p.val = _; omega
  have h1 : (((cfg0.win 26).blk t).view.emb (ix2 p q)) 1 = q := Fin.ext (by
    show win0_26.index t (1 : Fin 2) * 256 + 1 * q.val = q.val; omega)
  show _ = cellC (PV m c) (rowOf (V m c main_arg0 : Vec Ideal S50000x256 .f32) _) (rowOf (V m c main_arg3 : Vec Ideal S50000x256 .f32) _) (rowOf (V m c main_arg4 : Vec Ideal S50000x256 .f32) _) _
  rw [h1, rowBlk0 m c t p _ h0, rowBlk1 m c t p _ h0, rowBlk2 m c t p _ h0]

/-- Point `t` writes back block `t` of the new hidden state. -/
theorem flushedH (c : Dev nD) (t : Fin cfg0.N) :
    (dats m 0 c).flushed 25 t = ((cfg0.win 25).blk t).view.read (Elt Ideal) (arrH (PV m c) (V m c main_arg0) (V m c main_arg3) (V m c main_arg4)) := by
  rw [flushed25]
  unfold out0_25
  rw [View.canon_unit_zero hz]
  simp only [View.ld_unit_zero (S := S1000x256) hz, View.ld_unit_zero (S := S256x256) hz, View.ld_unit_zero (S := S1x256) hz]
  funext y
  obtain ⟨p, q, rfl⟩ : ∃ (p : Fin 1000) (q : Fin 256), y = ix2 p q := ⟨y 0, y 1, eq_ix2 y⟩
  refine (blockH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 22 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 23 t) p q).trans ?_
  rw [params_blk m c t]
  obtain ⟨r0a, r0b, r1a, r1b, r2a, r2b, r24a, r24b, r25a, r25b, r26a, r26b⟩ := idx_rows t
  have h0 : ((((cfg0.win 25).blk t).view.emb (ix2 p q)) 0).val = t.val * 1000 + p.val := by
    show win0_25.index t (0 : Fin 2) * 1000 + 1 * p.val = _; omega
  have h1 : (((cfg0.win 25).blk t).view.emb (ix2 p q)) 1 = q := Fin.ext (by
    show win0_25.index t (1 : Fin 2) * 256 + 1 * q.val = q.val; omega)
  show _ = cellH (PV m c) (rowOf (V m c main_arg0 : Vec Ideal S50000x256 .f32) _) (rowOf (V m c main_arg3 : Vec Ideal S50000x256 .f32) _) (rowOf (V m c main_arg4 : Vec Ideal S50000x256 .f32) _) _
  rw [h1, rowBlk0 m c t p _ h0, rowBlk1 m c t p _ h0, rowBlk2 m c t p _ h0]

/-- Point `t` writes back block `t` of the linear layer's result. -/
theorem flushedOut (c : Dev nD) (t : Fin cfg0.N) :
    (dats m 0 c).flushed 24 t = ((cfg0.win 24).blk t).view.read (Elt Ideal) (arrOut (PV m c) (V m c main_arg0) (V m c main_arg3) (V m c main_arg4)) := by
  rw [flushed24]
  unfold out0_24
  rw [View.canon_unit_zero hz]
  simp only [View.ld_unit_zero (S := S1000x256) hz, View.ld_unit_zero (S := S256x256) hz, View.ld_unit_zero (S := S1x256) hz]
  funext y
  obtain ⟨p, q, rfl⟩ : ∃ (p : Fin 1000) (q : Fin 256), y = ix2 p q := ⟨y 0, y 1, eq_ix2 y⟩
  refine (blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 22 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 23 t) p q).trans ?_
  rw [params_blk m c t]
  obtain ⟨r0a, r0b, r1a, r1b, r2a, r2b, r24a, r24b, r25a, r25b, r26a, r26b⟩ := idx_rows t
  have h0 : ((((cfg0.win 24).blk t).view.emb (ix2 p q)) 0).val = t.val * 1000 + p.val := by
    show win0_24.index t (0 : Fin 2) * 1000 + 1 * p.val = _; omega
  have h1 : (((cfg0.win 24).blk t).view.emb (ix2 p q)) 1 = q := Fin.ext (by
    show win0_24.index t (1 : Fin 2) * 256 + 1 * q.val = q.val; omega)
  show _ = lin (PV m c) (rowOf (V m c main_arg0 : Vec Ideal S50000x256 .f32) _) (rowOf (V m c main_arg3 : Vec Ideal S50000x256 .f32) _) (rowOf (V m c main_arg4 : Vec Ideal S50000x256 .f32) _) _
  rw [h1, rowBlk0 m c t p _ h0, rowBlk1 m c t p _ h0, rowBlk2 m c t p _ h0]

/-! ## The blocks cover the arrays -/

theorem mem_blk24 (t : Fin cfg0.N) (i : S50000x256.Idx) :
    i ∈ ((cfg0.win 24).blk t).view.set ↔ ∀ a : Fin 2, win0_24.index t a * S1000x256.size a ≤ (i a).val ∧ (i a).val < win0_24.index t a * S1000x256.size a + S1000x256.size a := by
  show i ∈ ((View.whole main_v5_0).slice (win0_24.rect t)).set ↔ _
  rw [View.set_slice_whole, Rect.mem_set_unit]
  exact Iff.rfl

theorem mem_blk25 (t : Fin cfg0.N) (i : S50000x256.Idx) :
    i ∈ ((cfg0.win 25).blk t).view.set ↔ ∀ a : Fin 2, win0_25.index t a * S1000x256.size a ≤ (i a).val ∧ (i a).val < win0_25.index t a * S1000x256.size a + S1000x256.size a := by
  show i ∈ ((View.whole main_v5_1).slice (win0_25.rect t)).set ↔ _
  rw [View.set_slice_whole, Rect.mem_set_unit]
  exact Iff.rfl

theorem mem_blk26 (t : Fin cfg0.N) (i : S50000x256.Idx) :
    i ∈ ((cfg0.win 26).blk t).view.set ↔ ∀ a : Fin 2, win0_26.index t a * S1000x256.size a ≤ (i a).val ∧ (i a).val < win0_26.index t a * S1000x256.size a + S1000x256.size a := by
  show i ∈ ((View.whole main_v5_2).slice (win0_26.rect t)).set ↔ _
  rw [View.set_slice_whole, Rect.mem_set_unit]
  exact Iff.rfl

/-- The cell-state result array after the run. -/
theorem finalC (c : Dev nD) : (dats m 0 c).arrAt 26 cfg0.N = arrC (PV m c) (V m c main_arg0) (V m c main_arg3) (V m c main_arg4) :=
  (dats m 0 c).arrAt_eq_of_cover 26 _ (fun t _ => flushedC m c t) (fun i => by
    have hi0 : (i 0).val < 50000 := (i 0).isLt
    have hi1 : (i 1).val < 256 := (i 1).isLt
    refine ⟨⟨(i 0).val / 1000, by show (i 0).val / 1000 < 50; omega⟩, flush0_26 _, ?_⟩
    rw [mem_blk26]
    obtain ⟨r0a, r0b, r1a, r1b, r2a, r2b, r24a, r24b, r25a, r25b, r26a, r26b⟩ := idx_rows ⟨(i 0).val / 1000, by show (i 0).val / 1000 < 50; omega⟩
    intro a
    match a with
    | ⟨0, _⟩ => show win0_26.index _ (0 : Fin 2) * 1000 ≤ (i 0).val ∧ (i 0).val < win0_26.index _ (0 : Fin 2) * 1000 + 1000; rw [r26a]; show (i 0).val / 1000 * 1000 ≤ (i 0).val ∧ (i 0).val < (i 0).val / 1000 * 1000 + 1000; omega
    | ⟨1, _⟩ => show win0_26.index _ (1 : Fin 2) * 256 ≤ (i 1).val ∧ (i 1).val < win0_26.index _ (1 : Fin 2) * 256 + 256; rw [r26b]; omega)

/-- The hidden-state result array after the run. -/
theorem finalH (c : Dev nD) : (dats m 0 c).arrAt 25 cfg0.N = arrH (PV m c) (V m c main_arg0) (V m c main_arg3) (V m c main_arg4) :=
  (dats m 0 c).arrAt_eq_of_cover 25 _ (fun t _ => flushedH m c t) (fun i => by
    have hi0 : (i 0).val < 50000 := (i 0).isLt
    have hi1 : (i 1).val < 256 := (i 1).isLt
    refine ⟨⟨(i 0).val / 1000, by show (i 0).val / 1000 < 50; omega⟩, flush0_25 _, ?_⟩
    rw [mem_blk25]
    obtain ⟨r0a, r0b, r1a, r1b, r2a, r2b, r24a, r24b, r25a, r25b, r26a, r26b⟩ := idx_rows ⟨(i 0).val / 1000, by show (i 0).val / 1000 < 50; omega⟩
    intro a
    match a with
    | ⟨0, _⟩ => show win0_25.index _ (0 : Fin 2) * 1000 ≤ (i 0).val ∧ (i 0).val < win0_25.index _ (0 : Fin 2) * 1000 + 1000; rw [r25a]; show (i 0).val / 1000 * 1000 ≤ (i 0).val ∧ (i 0).val < (i 0).val / 1000 * 1000 + 1000; omega
    | ⟨1, _⟩ => show win0_25.index _ (1 : Fin 2) * 256 ≤ (i 1).val ∧ (i 1).val < win0_25.index _ (1 : Fin 2) * 256 + 256; rw [r25b]; omega)

/-- The linear layer's result array after the run. -/
theorem finalOut (c : Dev nD) : (dats m 0 c).arrAt 24 cfg0.N = arrOut (PV m c) (V m c main_arg0) (V m c main_arg3) (V m c main_arg4) :=
  (dats m 0 c).arrAt_eq_of_cover 24 _ (fun t _ => flushedOut m c t) (fun i => by
    have hi0 : (i 0).val < 50000 := (i 0).isLt
    have hi1 : (i 1).val < 256 := (i 1).isLt
    refine ⟨⟨(i 0).val / 1000, by show (i 0).val / 1000 < 50; omega⟩, flush0_24 _, ?_⟩
    rw [mem_blk24]
    obtain ⟨r0a, r0b, r1a, r1b, r2a, r2b, r24a, r24b, r25a, r25b, r26a, r26b⟩ := idx_rows ⟨(i 0).val / 1000, by show (i 0).val / 1000 < 50; omega⟩
    intro a
    match a with
    | ⟨0, _⟩ => show win0_24.index _ (0 : Fin 2) * 1000 ≤ (i 0).val ∧ (i 0).val < win0_24.index _ (0 : Fin 2) * 1000 + 1000; rw [r24a]; show (i 0).val / 1000 * 1000 ≤ (i 0).val ∧ (i 0).val < (i 0).val / 1000 * 1000 + 1000; omega
    | ⟨1, _⟩ => show win0_24.index _ (1 : Fin 2) * 256 ≤ (i 1).val ∧ (i 1).val < win0_24.index _ (1 : Fin 2) * 256 + 256; rw [r24b]; omega)

/-! ## The run -/

/-- Every execution of the kernel program ends with the three result arrays at `arrOut`, `arrH`, `arrC` of
    the arrays the region found. -/
theorem run : θ_run defs (onTc (τ := τ) (main (F := Ideal))) ⟨m, fun _ => 0, ρ⟩ fun r => ∀ c : Dev nD,
      r.2.mem ((c : Thread nD τ).loc main_v5_0) = arrOut (PV m c) (V m c main_arg0) (V m c main_arg3) (V m c main_arg4)
      ∧ r.2.mem ((c : Thread nD τ).loc main_v5_1) = arrH (PV m c) (V m c main_arg0) (V m c main_arg3) (V m c main_arg4)
      ∧ r.2.mem ((c : Thread nD τ).loc main_v5_2) = arrC (PV m c) (V m c main_arg0) (V m c main_arg3) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(h c).1.trans (finalOut m c), (h c).2.1.trans (finalH m c), (h c).2.2.1.trans (finalC m c), (h c).2.2.2⟩)
    (run_blocks m ρ)

end Cert.KernelArrays

end
-- ==== Proof.KernelRun.lean ====
/-
  The kernel program's run, over its arguments.

  Before the region the program only reshapes the four hidden-side bias vectors and the linear layer's
  bias from `[256]` to `[1, 256]`; every other array reaches the region as it was given. A `[256]` vector
  reshaped to one row reads, at column `j` of that row, the vector's entry `j`. So the weights the region
  finds are the weights read off the arguments, and the three results are `arrOut`, `arrH`, `arrC` of the
  argument arrays.
-/
import proofs.«137124_j14474039788131_1_alg».proof.Proof.KernelArrays
import Idealize.ShloMosaic.Lib.StableHlo.Run

noncomputable section

namespace Cert.KernelRun

open Cert.KernelIdeal Cert.KernelIdeal.Gen Idealize.ShloMosaic Idealize.ShloMosaic.TcCoe Idealize.SL.Sem
open Idealize.ShloMosaic.ValueIdx Idealize.ShloMosaic.StableHlo Cert.CellSpec Cert.KernelBlock Cert.KernelArrays

variable (m : (ℓ : Loc nD τ sig) → Buf (Elt Ideal) ℓ) (ρ : Dev nD → PrngReg)

/-! ## The reshaped bias rows -/

theorem row_main_v0 (c : Dev nD) : rowOf1 (V m c main_v0 : Vec Ideal S1x256 .f32) = rowOfV (m ((c : Thread nD τ).loc main_arg13)) := by
  have e : (V m c main_v0 : S1x256.Idx → EReal) = shapeCast S1x256 (m ((c : Thread nD τ).loc main_arg13)) shapeCasts_S256_S1x256 := by
    dsimp only [V, hostOps0]; after_results; rfl
  funext j
  show (V m c main_v0 : S1x256.Idx → EReal) (ix2 0 j) = _
  rw [e]
  exact shapeCast_a_1a_apply _ shapeCasts_S256_S1x256 0 j

theorem row_main_v1 (c : Dev nD) : rowOf1 (V m c main_v1 : Vec Ideal S1x256 .f32) = rowOfV (m ((c : Thread nD τ).loc main_arg14)) := by
  have e : (V m c main_v1 : S1x256.Idx → EReal) = shapeCast S1x256 (m ((c : Thread nD τ).loc main_arg14)) shapeCasts_S256_S1x256 := by
    dsimp only [V, hostOps0]; after_results; rfl
  funext j
  show (V m c main_v1 : S1x256.Idx → EReal) (ix2 0 j) = _
  rw [e]
  exact shapeCast_a_1a_apply _ shapeCasts_S256_S1x256 0 j

theorem row_main_v2 (c : Dev nD) : rowOf1 (V m c main_v2 : Vec Ideal S1x256 .f32) = rowOfV (m ((c : Thread nD τ).loc main_arg15)) := by
  have e : (V m c main_v2 : S1x256.Idx → EReal) = shapeCast S1x256 (m ((c : Thread nD τ).loc main_arg15)) shapeCasts_S256_S1x256 := by
    dsimp only [V, hostOps0]; after_results; rfl
  funext j
  show (V m c main_v2 : S1x256.Idx → EReal) (ix2 0 j) = _
  rw [e]
  exact shapeCast_a_1a_apply _ shapeCasts_S256_S1x256 0 j

theorem row_main_v3 (c : Dev nD) : rowOf1 (V m c main_v3 : Vec Ideal S1x256 .f32) = rowOfV (m ((c : Thread nD τ).loc main_arg16)) := by
  have e : (V m c main_v3 : S1x256.Idx → EReal) = shapeCast S1x256 (m ((c : Thread nD τ).loc main_arg16)) shapeCasts_S256_S1x256 := by
    dsimp only [V, hostOps0]; after_results; rfl
  funext j
  show (V m c main_v3 : S1x256.Idx → EReal) (ix2 0 j) = _
  rw [e]
  exact shapeCast_a_1a_apply _ shapeCasts_S256_S1x256 0 j

theorem row_main_v4 (c : Dev nD) : rowOf1 (V m c main_v4 : Vec Ideal S1x256 .f32) = rowOfV (m ((c : Thread nD τ).loc main_arg25)) := by
  have e : (V m c main_v4 : S1x256.Idx → EReal) = shapeCast S1x256 (m ((c : Thread nD τ).loc main_arg25)) shapeCasts_S256_S1x256 := by
    dsimp only [V, hostOps0]; after_results; rfl
  funext j
  show (V m c main_v4 : S1x256.Idx → EReal) (ix2 0 j) = _
  rw [e]
  exact shapeCast_a_1a_apply _ shapeCasts_S256_S1x256 0 j

/-- The weights read off the arguments. -/
abbrev PM (c : Dev nD) : Params := paramsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg24)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg25))

/-- The weights the region finds are the weights read off the arguments. -/
theorem PV_eq (c : Dev nD) : PV m c = PM m c := by
  unfold PV PM params paramsOf
  rw [row_main_v0 m c, row_main_v1 m c, row_main_v2 m c, row_main_v3 m c, row_main_v4 m c,
    V_main_arg5 m c, V_main_arg6 m c, V_main_arg7 m c, V_main_arg8 m c, V_main_arg9 m c, V_main_arg10 m c, V_main_arg11 m c, V_main_arg12 m c, V_main_arg24 m c, V_main_arg17 m c, V_main_arg18 m c, V_main_arg19 m c, V_main_arg20 m c, V_main_arg21 m c, V_main_arg22 m c, V_main_arg23 m c]

/-- Every execution of the kernel program ends with the three result arrays at `arrOut`, `arrH`, `arrC` of
    its argument arrays, and the arguments unchanged. -/
theorem run : θ_run defs (onTc (τ := τ) (main (F := Ideal))) ⟨m, fun _ => 0, ρ⟩ fun r => ∀ c : Dev nD,
      r.2.mem ((c : Thread nD τ).loc main_v5_0) = arrOut (PM m c) (m ((c : Thread nD τ).loc main_arg0)) (m ((c : Thread nD τ).loc main_arg3)) (m ((c : Thread nD τ).loc main_arg4))
      ∧ r.2.mem ((c : Thread nD τ).loc main_v5_1) = arrH (PM m c) (m ((c : Thread nD τ).loc main_arg0)) (m ((c : Thread nD τ).loc main_arg3)) (m ((c : Thread nD τ).loc main_arg4))
      ∧ r.2.mem ((c : Thread nD τ).loc main_v5_2) = arrC (PM m c) (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c =>
      ⟨(h c).1.trans (by rw [PV_eq m c, V_main_arg0 m c, V_main_arg3 m c, V_main_arg4 m c]),
       (h c).2.1.trans (by rw [PV_eq m c, V_main_arg0 m c, V_main_arg3 m c, V_main_arg4 m c]),
       (h c).2.2.1.trans (by rw [PV_eq m c, V_main_arg0 m c, V_main_arg3 m c, V_main_arg4 m c]),
       (h c).2.2.2⟩)
    (KernelArrays.run m ρ)

end Cert.KernelRun

end
-- ==== Proof.RefValue.lean ====
/-
  The reference program's three results, read at an entry.

  The reference computes on the whole arrays: each matrix product is a `dot_general` over all 50000
  rows, each bias a broadcast over the rows, and its sigmoid is spelt `1 / (1 + exp (-z))` with the
  float word of one. At row `r` and column `j` a `dot_general` is the row's product with a column of
  the weights, a broadcast bias is its entry at `j`, and the spelt sigmoid is the sigmoid. The
  reference adds the hidden-side bias to the hidden-side product before adding the feature-side
  product; re-associating that sum gives the cell specification's grouping. So the three results at
  `(r, j)` are `cellC`, `cellH` and `lin` of row `r` of the inputs.
-/
import proofs.«137124_j14474039788131_1_alg».proof.Proof.Gen.ReferenceIdeal.Read
import proofs.«137124_j14474039788131_1_alg».proof.Proof.CellSpec
import Idealize.ShloMosaic.Lib.IdealHost

noncomputable section

open scoped BigOperators

namespace Cert.RefValue

open Idealize.ShloMosaic Idealize.ShloMosaic.ValueIdx Cert.ReferenceIdeal Cert.ReferenceIdeal.Read Cert.CellSpec
open Cert.ReferenceIdeal.Facts₀

/-! ## The operations that are not entry by entry -/

theorem lidx_at (r : Fin 50000) (j k : Fin 256) : lidx_main_v0 (ix2 r j) k = ix2 r k :=
  funext fun a => Fin.ext (by match a with | ⟨0, _⟩ => rfl | ⟨1, _⟩ => rfl)

theorem ridx_at (r : Fin 50000) (j k : Fin 256) : ridx_main_v0 (ix2 r j) k = ix2 k j :=
  funext fun a => Fin.ext (by match a with | ⟨0, _⟩ => rfl | ⟨1, _⟩ => rfl)

/-- A product of the whole array with a weight matrix, at an entry: the row's product with the column. -/
theorem hostDot_at (a : (⟨S50000x256, .f32⟩ : BufTy).Contents (Elt Ideal)) (w : (⟨S256x256, .f32⟩ : BufTy).Contents (Elt Ideal)) (r : Fin 50000) (j : Fin 256) :
    (Host.dotGeneral (φ₁ := .f32) (φ₂ := .f32) dot_S50000x256_S256x256_S50000x256_1_0_0_1_n_n none a w : FVec Ideal S50000x256 .f32) (ix2 r j)
      = dot (rowOf a r) (sqOf w) j := by
  refine (val_main_v0_apply a w (ix2 r j)).trans ?_
  refine Finset.sum_congr rfl fun k _ => ?_
  rw [lidx_at, ridx_at]

/-- A `[1, 256]` row broadcast over the rows reads its one row. -/
theorem rowBcast_at (y : (⟨S1x256, .f32⟩ : BufTy).Contents (Elt Ideal)) (r : Fin 50000) (j : Fin 256) :
    (broadcastInDim S50000x256 ![0, 1] bcast_S1x256_S50000x256_0_1 y : FVec Ideal S50000x256 .f32) (ix2 r j) = y (ix2 0 j) := by
  refine (val_main_v6_apply (F := Ideal) y (ix2 r j)).trans (congrArg y ?_)
  exact funext fun a => Fin.ext (by match a with | ⟨0, _⟩ => rfl | ⟨1, _⟩ => rfl)

/-- A `[256]` vector laid as a row and broadcast over the rows reads its entry at the column. -/
theorem vecBcast_at (v : (⟨S256, .f32⟩ : BufTy).Contents (Elt Ideal)) (r : Fin 50000) (j : Fin 256) :
    (broadcastInDim S50000x256 ![0, 1] bcast_S1x256_S50000x256_0_1 (broadcastInDim S1x256 ![1] bcast_S256_S1x256_1 v) : FVec Ideal S50000x256 .f32) (ix2 r j)
      = v (ix1 j) := by
  refine (val_main_v3_apply (F := Ideal) v (ix2 r j)).trans ((val_main_v2_apply (F := Ideal) v _).trans (congrArg v ?_))
  exact funext fun a => Fin.ext (by match a with | ⟨0, _⟩ => rfl)

/-- A scalar constant broadcast over the array reads the constant. -/
theorem scalarBcast_at (b : BitVec 32) (i : S50000x256.Idx) :
    (broadcastInDim S50000x256 ![] bcast_S_S50000x256 (constant S_ .f32 b) : FVec Ideal S50000x256 .f32) i = Ideal.ofBits .f32 b := rfl

/-! ## The stages that are not entry by entry, by name -/

theorem v0_at (x0 : (⟨S50000x256, .f32⟩ : BufTy).Contents (Elt Ideal)) (x5 : (⟨S256x256, .f32⟩ : BufTy).Contents (Elt Ideal)) (r : Fin 50000) (j : Fin 256) :
    val_main_v0 (F := Ideal) x0 x5 (ix2 r j) = dot (rowOf x0 r) (sqOf x5) j := hostDot_at x0 x5 r j

theorem v1_at (x3 : (⟨S50000x256, .f32⟩ : BufTy).Contents (Elt Ideal)) (x9 : (⟨S256x256, .f32⟩ : BufTy).Contents (Elt Ideal)) (r : Fin 50000) (j : Fin 256) :
    val_main_v1 (F := Ideal) x3 x9 (ix2 r j) = dot (rowOf x3 r) (sqOf x9) j := hostDot_at x3 x9 r j

theorem v17_at (x0 : (⟨S50000x256, .f32⟩ : BufTy).Contents (Elt Ideal)) (x6 : (⟨S256x256, .f32⟩ : BufTy).Contents (Elt Ideal)) (r : Fin 50000) (j : Fin 256) :
    val_main_v17 (F := Ideal) x0 x6 (ix2 r j) = dot (rowOf x0 r) (sqOf x6) j := hostDot_at x0 x6 r j

theorem v18_at (x3 : (⟨S50000x256, .f32⟩ : BufTy).Contents (Elt Ideal)) (x10 : (⟨S256x256, .f32⟩ : BufTy).Contents (Elt Ideal)) (r : Fin 50000) (j : Fin 256) :
    val_main_v18 (F := Ideal) x3 x10 (ix2 r j) = dot (rowOf x3 r) (sqOf x10) j := hostDot_at x3 x10 r j

theorem v34_at (x0 : (⟨S50000x256, .f32⟩ : BufTy).Contents (Elt Ideal)) (x7 : (⟨S256x256, .f32⟩ : BufTy).Contents (Elt Ideal)) (r : Fin 50000) (j : Fin 256) :
    val_main_v34 (F := Ideal) x0 x7 (ix2 r j) = dot (rowOf x0 r) (sqOf x7) j := hostDot_at x0 x7 r j

theorem v35_at (x3 : (⟨S50000x256, .f32⟩ : BufTy).Contents (Elt Ideal)) (x11 : (⟨S256x256, .f32⟩ : BufTy).Contents (Elt Ideal)) (r : Fin 50000) (j : Fin 256) :
    val_main_v35 (F := Ideal) x3 x11 (ix2 r j) = dot (rowOf x3 r) (sqOf x11) j := hostDot_at x3 x11 r j

theorem v46_at (x0 : (⟨S50000x256, .f32⟩ : BufTy).Contents (Elt Ideal)) (x8 : (⟨S256x256, .f32⟩ : BufTy).Contents (Elt Ideal)) (r : Fin 50000) (j : Fin 256) :
    val_main_v46 (F := Ideal) x0 x8 (ix2 r j) = dot (rowOf x0 r) (sqOf x8) j := hostDot_at x0 x8 r j

theorem v47_at (x3 : (⟨S50000x256, .f32⟩ : BufTy).Contents (Elt Ideal)) (x12 : (⟨S256x256, .f32⟩ : BufTy).Contents (Elt Ideal)) (r : Fin 50000) (j : Fin 256) :
    val_main_v47 (F := Ideal) x3 x12 (ix2 r j) = dot (rowOf x3 r) (sqOf x12) j := hostDot_at x3 x12 r j

theorem v3_at (x13 : (⟨S256, .f32⟩ : BufTy).Contents (Elt Ideal)) (r : Fin 50000) (j : Fin 256) :
    val_main_v3 (F := Ideal) x13 (ix2 r j) = x13 (ix1 j) := vecBcast_at x13 r j

theorem v20_at (x14 : (⟨S256, .f32⟩ : BufTy).Contents (Elt Ideal)) (r : Fin 50000) (j : Fin 256) :
    val_main_v20 (F := Ideal) x14 (ix2 r j) = x14 (ix1 j) := vecBcast_at x14 r j

theorem v37_at (x15 : (⟨S256, .f32⟩ : BufTy).Contents (Elt Ideal)) (r : Fin 50000) (j : Fin 256) :
    val_main_v37 (F := Ideal) x15 (ix2 r j) = x15 (ix1 j) := vecBcast_at x15 r j

theorem v49_at (x16 : (⟨S256, .f32⟩ : BufTy).Contents (Elt Ideal)) (r : Fin 50000) (j : Fin 256) :
    val_main_v49 (F := Ideal) x16 (ix2 r j) = x16 (ix1 j) := vecBcast_at x16 r j

theorem v68_at (x25 : (⟨S256, .f32⟩ : BufTy).Contents (Elt Ideal)) (r : Fin 50000) (j : Fin 256) :
    val_main_v68 (F := Ideal) x25 (ix2 r j) = x25 (ix1 j) := vecBcast_at x25 r j

theorem v6_at (x17 : (⟨S1x256, .f32⟩ : BufTy).Contents (Elt Ideal)) (r : Fin 50000) (j : Fin 256) :
    val_main_v6 (F := Ideal) x17 (ix2 r j) = x17 (ix2 0 j) := rowBcast_at x17 r j

theorem v9_at (x20 : (⟨S1x256, .f32⟩ : BufTy).Contents (Elt Ideal)) (r : Fin 50000) (j : Fin 256) :
    val_main_v9 (F := Ideal) x20 (ix2 r j) = x20 (ix2 0 j) := rowBcast_at x20 r j

theorem v23_at (x18 : (⟨S1x256, .f32⟩ : BufTy).Contents (Elt Ideal)) (r : Fin 50000) (j : Fin 256) :
    val_main_v23 (F := Ideal) x18 (ix2 r j) = x18 (ix2 0 j) := rowBcast_at x18 r j

theorem v26_at (x21 : (⟨S1x256, .f32⟩ : BufTy).Contents (Elt Ideal)) (r : Fin 50000) (j : Fin 256) :
    val_main_v26 (F := Ideal) x21 (ix2 r j) = x21 (ix2 0 j) := rowBcast_at x21 r j

theorem v40_at (x22 : (⟨S1x256, .f32⟩ : BufTy).Contents (Elt Ideal)) (r : Fin 50000) (j : Fin 256) :
    val_main_v40 (F := Ideal) x22 (ix2 r j) = x22 (ix2 0 j) := rowBcast_at x22 r j

theorem v52_at (x19 : (⟨S1x256, .f32⟩ : BufTy).Contents (Elt Ideal)) (r : Fin 50000) (j : Fin 256) :
    val_main_v52 (F := Ideal) x19 (ix2 r j) = x19 (ix2 0 j) := rowBcast_at x19 r j

theorem v55_at (x23 : (⟨S1x256, .f32⟩ : BufTy).Contents (Elt Ideal)) (r : Fin 50000) (j : Fin 256) :
    val_main_v55 (F := Ideal) x23 (ix2 r j) = x23 (ix2 0 j) := rowBcast_at x23 r j

theorem v13_at (i : S50000x256.Idx) : val_main_v13 (F := Ideal) i = Ideal.ofBits .f32 0x3F800000#32 := scalarBcast_at _ i

theorem v15_at (i : S50000x256.Idx) : val_main_v15 (F := Ideal) i = Ideal.ofBits .f32 0x3F800000#32 := scalarBcast_at _ i

theorem v30_at (i : S50000x256.Idx) : val_main_v30 (F := Ideal) i = Ideal.ofBits .f32 0x3F800000#32 := scalarBcast_at _ i

theorem v32_at (i : S50000x256.Idx) : val_main_v32 (F := Ideal) i = Ideal.ofBits .f32 0x3F800000#32 := scalarBcast_at _ i

theorem v59_at (i : S50000x256.Idx) : val_main_v59 (F := Ideal) i = Ideal.ofBits .f32 0x3F800000#32 := scalarBcast_at _ i

theorem v61_at (i : S50000x256.Idx) : val_main_v61 (F := Ideal) i = Ideal.ofBits .f32 0x3F800000#32 := scalarBcast_at _ i

theorem relu0_at (i : S50000x256.Idx) : val_main_call0_v0 (F := Ideal) i = Ideal.ofBits .f32 0x00000000#32 := scalarBcast_at _ i

/-! ## The three results -/

variable (x0 x3 x4 : (⟨S50000x256, .f32⟩ : BufTy).Contents (Elt Ideal)) (x5 x6 x7 x8 x9 x10 x11 x12 x24 : (⟨S256x256, .f32⟩ : BufTy).Contents (Elt Ideal)) (x13 x14 x15 x16 x25 : (⟨S256, .f32⟩ : BufTy).Contents (Elt Ideal))
  (x17 x18 x19 x20 x21 x22 x23 : (⟨S1x256, .f32⟩ : BufTy).Contents (Elt Ideal))

/-- The reference's new cell state at row `r`, column `j`. -/
theorem refC_at (r : Fin 50000) (j : Fin 256) :
    val_main_v45 (F := Ideal) x0 x3 x4 x5 x6 x7 x9 x10 x11 x13 x14 x15 x17 x18 x20 x21 x22 (ix2 r j)
      = cellC (paramsOf x5 x6 x7 x8 x9 x10 x11 x12 x24 x13 x14 x15 x16 x17 x18 x19 x20 x21 x22 x23 x25) (rowOf x0 r) (rowOf x3 r) (rowOf x4 r) j := by
  simp only [val_main_v4_apply, val_main_v5_apply, val_main_v7_apply, val_main_v8_apply, val_main_v10_apply, val_main_v11_apply, val_main_v12_apply, val_main_v14_apply, val_main_v16_apply, val_main_v21_apply, val_main_v22_apply, val_main_v24_apply, val_main_v25_apply, val_main_v27_apply, val_main_v28_apply, val_main_v29_apply, val_main_v31_apply, val_main_v33_apply, val_main_v38_apply, val_main_v39_apply, val_main_v41_apply, val_main_v42_apply, val_main_v43_apply, val_main_v44_apply, val_main_v45_apply, v0_at, v1_at, v3_at, v6_at, v9_at, v13_at, v15_at, v17_at, v18_at, v20_at, v23_at, v26_at, v30_at, v32_at, v34_at, v35_at, v37_at, v40_at, Ideal.addf_def, Ideal.mulf_def, Ideal.hostDivf_def, Ideal.hostNegf_def, Ideal.negf_def, Ideal.hostUnary_exp_def, Ideal.hostUnary_tanh_def, Ideal.maximumf_def, Ideal.ofBits_def, logistic_spelt, ← add_assoc]
  rfl

/-- The reference's new hidden state at row `r`, column `j`. -/
theorem refH_at (r : Fin 50000) (j : Fin 256) :
    val_main_v64 (F := Ideal) x0 x3 x4 x5 x6 x7 x8 x9 x10 x11 x12 x13 x14 x15 x16 x17 x18 x19 x20 x21 x22 x23 (ix2 r j)
      = cellH (paramsOf x5 x6 x7 x8 x9 x10 x11 x12 x24 x13 x14 x15 x16 x17 x18 x19 x20 x21 x22 x23 x25) (rowOf x0 r) (rowOf x3 r) (rowOf x4 r) j := by
  simp only [val_main_v50_apply, val_main_v51_apply, val_main_v53_apply, val_main_v54_apply, val_main_v56_apply, val_main_v57_apply, val_main_v58_apply, val_main_v60_apply, val_main_v62_apply, val_main_v63_apply, val_main_v64_apply, v46_at, v47_at, v49_at, v52_at, v55_at, v59_at, v61_at, refC_at x0 x3 x4 x5 x6 x7 x8 x9 x10 x11 x12 x24 x13 x14 x15 x16 x25 x17 x18 x19 x20 x21 x22 x23, Ideal.addf_def, Ideal.mulf_def, Ideal.hostDivf_def, Ideal.hostNegf_def, Ideal.negf_def, Ideal.hostUnary_exp_def, Ideal.hostUnary_tanh_def, Ideal.maximumf_def, Ideal.ofBits_def, logistic_spelt, ← add_assoc]
  rfl

/-- The reference's linear layer at row `r`, column `j`. -/
theorem refOut_at (r : Fin 50000) (j : Fin 256) :
    val_main_v69 (F := Ideal) x0 x3 x4 x5 x6 x7 x8 x9 x10 x11 x12 x13 x14 x15 x16 x17 x18 x19 x20 x21 x22 x23 x24 x25 (ix2 r j)
      = lin (paramsOf x5 x6 x7 x8 x9 x10 x11 x12 x24 x13 x14 x15 x16 x17 x18 x19 x20 x21 x22 x23 x25) (rowOf x0 r) (rowOf x3 r) (rowOf x4 r) j := by
  rw [val_main_v69_apply, v68_at]
  show FloatOps.addf ((Host.dotGeneral (φ₁ := .f32) (φ₂ := .f32) dot_S50000x256_S256x256_S50000x256_1_0_0_1_n_n none
      (val_main_v65 (F := Ideal) x0 x3 x4 x5 x6 x7 x8 x9 x10 x11 x12 x13 x14 x15 x16 x17 x18 x19 x20 x21 x22 x23) x24 : FVec Ideal S50000x256 .f32) (ix2 r j)) _ = _
  rw [hostDot_at]
  refine congrArg (· + x25 (ix1 j)) (Finset.sum_congr rfl fun k _ => ?_)
  show val_main_v65 (F := Ideal) x0 x3 x4 x5 x6 x7 x8 x9 x10 x11 x12 x13 x14 x15 x16 x17 x18 x19 x20 x21 x22 x23 (ix2 r k) * x24 (ix2 k j) = _
  rw [val_main_v65_apply, relu0_at, refH_at x0 x3 x4 x5 x6 x7 x8 x9 x10 x11 x12 x24 x13 x14 x15 x16 x25 x17 x18 x19 x20 x21 x22 x23]
  rfl

/-! ## The three results as whole arrays -/

theorem refC_eq : val_main_v45 (F := Ideal) x0 x3 x4 x5 x6 x7 x9 x10 x11 x13 x14 x15 x17 x18 x20 x21 x22
      = arrC (paramsOf x5 x6 x7 x8 x9 x10 x11 x12 x24 x13 x14 x15 x16 x17 x18 x19 x20 x21 x22 x23 x25) x0 x3 x4 := by
  funext i
  rw [eq_ix2 i]
  exact refC_at x0 x3 x4 x5 x6 x7 x8 x9 x10 x11 x12 x24 x13 x14 x15 x16 x25 x17 x18 x19 x20 x21 x22 x23 (i 0) (i 1)

theorem refH_eq : val_main_v64 (F := Ideal) x0 x3 x4 x5 x6 x7 x8 x9 x10 x11 x12 x13 x14 x15 x16 x17 x18 x19 x20 x21 x22 x23
      = arrH (paramsOf x5 x6 x7 x8 x9 x10 x11 x12 x24 x13 x14 x15 x16 x17 x18 x19 x20 x21 x22 x23 x25) x0 x3 x4 := by
  funext i
  rw [eq_ix2 i]
  exact refH_at x0 x3 x4 x5 x6 x7 x8 x9 x10 x11 x12 x24 x13 x14 x15 x16 x25 x17 x18 x19 x20 x21 x22 x23 (i 0) (i 1)

theorem refOut_eq : val_main_v69 (F := Ideal) x0 x3 x4 x5 x6 x7 x8 x9 x10 x11 x12 x13 x14 x15 x16 x17 x18 x19 x20 x21 x22 x23 x24 x25
      = arrOut (paramsOf x5 x6 x7 x8 x9 x10 x11 x12 x24 x13 x14 x15 x16 x17 x18 x19 x20 x21 x22 x23 x25) x0 x3 x4 := by
  funext i
  rw [eq_ix2 i]
  exact refOut_at x0 x3 x4 x5 x6 x7 x8 x9 x10 x11 x12 x24 x13 x14 x15 x16 x25 x17 x18 x19 x20 x21 x22 x23 (i 0) (i 1)

end Cert.RefValue

end
-- ==== Proof.lean ====
/-
  The kernel fuses one step of a gated recurrent cell (input, forget and output gates with peepholes on
  the cell state, a tanh candidate) with a rectified linear layer, 1000 rows at a time, and returns the
  linear layer's result, the new hidden state and the new cell state. The reference computes the same
  three arrays with whole-array matrix products.

  Over the extended reals the two agree entry by entry. Changes of float format are the identity, so
  the kernel's matrix products are the plain sums the reference's are; each entry of row `r` of a result
  depends on row `r` of the inputs only, so computing by blocks of rows changes nothing; the kernel's
  sigmoid is `1 / (1 + exp (-z))`, which is how the reference spells it; and the one difference of
  grouping — the reference adds the hidden-side bias to the hidden-side product first — is
  associativity of addition. No finiteness of the inputs is used.

  `Cert.CellSpec` states the cell and the layer for one row; `Cert.KernelBlock`, `Cert.KernelArrays` and
  `Cert.KernelRun` read the kernel's run as that specification of its arguments; `Cert.RefValue` reads the
  reference's run as the same specification; here the two runs are set side by side.
-/
import proofs.«137124_j14474039788131_1_alg».proof.Defs
import proofs.«137124_j14474039788131_1_alg».proof.Proof.Gen.Kernel
import proofs.«137124_j14474039788131_1_alg».proof.Proof.Gen.Kernel.Skeleton
import proofs.«137124_j14474039788131_1_alg».proof.Proof.Gen.Kernel.Launch
import proofs.«137124_j14474039788131_1_alg».proof.Proof.Gen.Kernel.Points
import proofs.«137124_j14474039788131_1_alg».proof.Proof.Gen.Kernel.Frame
import proofs.«137124_j14474039788131_1_alg».proof.Proof.Gen.KernelIdeal
import proofs.«137124_j14474039788131_1_alg».proof.Proof.Gen.KernelIdeal.Skeleton
import proofs.«137124_j14474039788131_1_alg».proof.Proof.Gen.KernelIdeal.Launch
import proofs.«137124_j14474039788131_1_alg».proof.Proof.Gen.KernelIdeal.Points
import proofs.«137124_j14474039788131_1_alg».proof.Proof.Gen.KernelIdeal.Frame
import proofs.«137124_j14474039788131_1_alg».proof.Proof.Gen.ReferenceIdeal
import proofs.«137124_j14474039788131_1_alg».proof.Proof.Gen.Pre_finite_inputs
import proofs.«137124_j14474039788131_1_alg».proof.Proof.Gen.KernelIdeal.Value
import proofs.«137124_j14474039788131_1_alg».proof.Proof.Gen.ReferenceIdeal.Run
import proofs.«137124_j14474039788131_1_alg».proof.Proof.Gen.ReferenceIdeal.Read
import proofs.«137124_j14474039788131_1_alg».proof.Proof.KernelRun
import proofs.«137124_j14474039788131_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 4000000 in
/-- Run from memories that agree on the arguments, the idealized kernel and the idealized reference end
    with the same three arrays: both are the cell specification's `arrOut`, `arrH`, `arrC` of the
    arguments. -/
theorem algebraic : Cert.algebraic_KernelIdeal_ReferenceIdeal := by
  intro m ρ m' ρ' _ hagree
  refine ⟨_, _, _, Cert.KernelRun.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17, a18, a19, a20, a21, a22, a23, a24, a25⟩ := hagree c
  refine ⟨(h c).1.trans ?_, (h c).2.1.trans ?_, (h c).2.2.1.trans ?_, (h c).2.2.2⟩
  · refine (Cert.ReferenceIdeal.Read.val_main_v69_eq m' c).trans ?_
    refine (Cert.RefValue.refOut_eq _ _ _ _ _ _ _ _ _ _ _ _ _ _ _ _ _ _ _ _ _ _ _ _).trans ?_
    rw [a0, a3, a4, a5, a6, a7, a8, a9, a10, a11, a12, a13, a14, a15, a16, a17, a18, a19, a20, a21, a22, a23, a24, a25]
  · refine (Cert.ReferenceIdeal.Read.val_main_v64_eq m' c).trans ?_
    refine (Cert.RefValue.refH_eq _ _ _ _ _ _ _ _ _ _ _ (m' ((c.tc : Thread Cert.ReferenceIdeal.nD Cert.ReferenceIdeal.τ).loc Cert.ReferenceIdeal.main_arg24)) _ _ _ _ (m' ((c.tc : Thread Cert.ReferenceIdeal.nD Cert.ReferenceIdeal.τ).loc Cert.ReferenceIdeal.main_arg25)) _ _ _ _ _ _ _).trans ?_
    rw [a0, a3, a4, a5, a6, a7, a8, a9, a10, a11, a12, a13, a14, a15, a16, a17, a18, a19, a20, a21, a22, a23, a24, a25]
  · refine (Cert.ReferenceIdeal.Read.val_main_v45_eq _ _ _ _ _ _ _ _ _ _ _ _ _ _ _ _ _).trans ?_
    refine (Cert.RefValue.refC_eq _ _ _ _ _ _ (m' ((c.tc : Thread Cert.ReferenceIdeal.nD Cert.ReferenceIdeal.τ).loc Cert.ReferenceIdeal.main_arg8)) _ _ _ (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg24)) _ _ _ (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg25)) _ _ (m' ((c.tc : Thread Cert.ReferenceIdeal.nD Cert.ReferenceIdeal.τ).loc Cert.ReferenceIdeal.main_arg19)) _ _ _ (m' ((c.tc : Thread Cert.ReferenceIdeal.nD Cert.ReferenceIdeal.τ).loc Cert.ReferenceIdeal.main_arg23))).trans ?_
    rw [a0, a3, a4, a5, a6, a7, a8, a9, a10, a11, a12, a13, a14, a15, a16, a17, a18, a19, a20, a21, a22, a23, a24, a25]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
